-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S16x4096 .f32) (main_arg5 : FVec F S4096x16 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S1x4096 .f32) (main_arg4 : FVec F S16x4096 .f32) (main_arg5 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S4096x256 : Shape := ⟨2, ![4096, 256]⟩
abbrev S16x256 : Shape := ⟨2, ![16, 256]⟩
abbrev S1x256 : Shape := ⟨2, ![1, 256]⟩
abbrev S256 : Shape := ⟨1, ![256]⟩
abbrev S8192x4096 : Shape := ⟨2, ![8192, 4096]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16x4096, .f32⟩
  | .hbm, ⟨5, _⟩ => ⟨S4096x16, .f32⟩
  | .hbm, ⟨6, _⟩ => ⟨S4096x4096, .f32⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S4096x256, .f32⟩
  | .local _ .vmem, ⟨1, _⟩ => ⟨S4096x256, .f32⟩
  | .local _ .vmem, ⟨2, _⟩ => ⟨S4096x16, .f32⟩
  | .local _ .vmem, ⟨3, _⟩ => ⟨S16x256, .f32⟩
  | .local _ .vmem, ⟨4, _⟩ => ⟨S16x256, .f32⟩
  | .local _ .vmem, ⟨5, _⟩ => ⟨S1x256, .f32⟩
  | .local _ .vmem, ⟨6, _⟩ => ⟨S1x256, .f32⟩
  | .local _ .vmem, ⟨7, _⟩ => ⟨S4096x256, .f32⟩
  | .local _ .vmem, ⟨8, _⟩ => ⟨S4096x256, .f32⟩
  | .local _ .vmem, ⟨9, _⟩ => ⟨S256x4096, .f32⟩
  | .local _ .vmem, ⟨10, _⟩ => ⟨S256x4096, .f32⟩
  | .local _ .vmem, ⟨11, _⟩ => ⟨S512x4096, .f32⟩
  | .local _ .vmem, ⟨12, _⟩ => ⟨S512x4096, .f32⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S4096x16_S4096x16_0_0 : ∀ a, (![0, 0] : Fin 2 → Nat) a + S4096x16.size a ≤ S4096x16.size a
  h_S4096x16 : 0 < S4096x16.numel
  inb_S16x256_S16x256_0_0 : ∀ a, (![0, 0] : Fin 2 → Nat) a + S16x256.size a ≤ S16x256.size a
  h_S16x256 : 0 < S16x256.numel
  inb_S4096x256_S4096x256_0_0 : ∀ a, (![0, 0] : Fin 2 → Nat) a + S4096x256.size a ≤ S4096x256.size a
  h_S4096x256 : 0 < S4096x256.numel
  reduces_S4096x256_S256 : S4096x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  broadcasts_S1x256_S4096x256 : S1x256.Broadcasts S4096x256
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S8192x4096_S4x2048x4096 : S8192x4096.ShapeCasts S4x2048x4096
  dot_S4096x16_S16x256_S4096x256_1_0_0_1_n_n_wf : DotDims.WF S4096x16 S16x256 S4096x256 [1] [0] [0] [1] [] []
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x4096.size a
  hwx0_0 : ∀ i : grid0.Coords, EltTy.bits .f32 = 32 ∨ (Rect.block (s := S4096x4096) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S4096x4096.size a
  hwx0_4 : ∀ i : grid0.Coords, EltTy.bits .f32 = 32 ∨ (Rect.block (s := S4096x4096) S4096x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S8192x4096.size a
  hwx1_3 : ∀ i : grid1.Coords, EltTy.bits .f32 = 32 ∨ (Rect.block (s := S8192x4096) S256x512.size (cc1_transform_3 i) (hinb1_3 i)).WholeWords (EltTy.packing .f32)

variable [Facts₀]

def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_arg1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x4096 : Shape := ⟨2, ![1, 4096]⟩
abbrev S16x4096 : Shape := ⟨2, ![16, 4096]⟩
abbrev S4096x16 : Shape := ⟨2, ![4096, 16]⟩
abbrev S_ : Shape := ⟨0, ![]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16x4096, .f32⟩
  | .hbm, ⟨5, _⟩ => ⟨S4096x16, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.HostStretch.lean ====
/-
  The host operations between and after the two kernels are reshapes only.
  Between them: the input [4, 2048, 4096] is re-read in row-major order as [8192, 4096], the bias [4096] as one row [1, 4096]; the first
  kernel's result array is not touched. After the second kernel its [8192, 4096] result is re-read in row-major order as [4, 2048, 4096].
  Neither kernel writes the input or the bias, so the two reshapes between them read the arrays as launched.
-/
import proofs.«123649_j18373870092444_1_alg».proof.Proof.Gen.KernelIdeal.Frame
import Idealize.ShloMosaic.Lib.StableHlo.Run

set_option maxRecDepth 16384

noncomputable section

namespace Cert.KernelIdeal.HostStretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- When the second kernel is entered, its input rows are the launched input re-read as [8192, 4096]. -/
theorem rows_entry (c : Dev nD) : W2 m ρ c (Proc.devRef .tc main_v1)
    = shapeCast S8192x4096 (m ((c : Thread nD τ).loc main_arg0)) shapeCasts_S4x2048x4096_S8192x4096 := by
  have e : W1 m ρ c (Proc.devRef .tc main_arg0) = m ((c : Thread nD τ).loc main_arg0) := W1_of_ne m ρ c main_arg0 (by decide)
  rw [← e]
  show StableHlo.after hostOps1 (W1 m ρ c) (Proc.devRef .tc main_v1) = _
  after_results
  rfl

/-- When the second kernel is entered, its bias row is the launched bias re-read as [1, 4096]. -/
theorem bias_entry (c : Dev nD) : W2 m ρ c (Proc.devRef .tc main_v2)
    = shapeCast S1x4096 (m ((c : Thread nD τ).loc main_arg2)) shapeCasts_S4096_S1x4096 := by
  have e : W1 m ρ c (Proc.devRef .tc main_arg2) = m ((c : Thread nD τ).loc main_arg2) := W1_of_ne m ρ c main_arg2 (by decide)
  rw [← e]
  show StableHlo.after hostOps1 (W1 m ρ c) (Proc.devRef .tc main_v2) = _
  after_results
  rfl

/-- When the second kernel is entered, the first kernel's result array holds what the first kernel left. -/
theorem weight_entry (c : Dev nD) : W2 m ρ c (Proc.devRef .tc main_v0) = W1 m ρ c (Proc.devRef .tc main_v0) := by
  show StableHlo.after hostOps1 (W1 m ρ c) (Proc.devRef .tc main_v0) = _
  after_results

/-- At the return the result buffer is the second kernel's result array re-read as [4, 2048, 4096]. -/
theorem result_exit (c : Dev nD) : W4 m ρ c (Proc.devRef .tc main_v4)
    = shapeCast S4x2048x4096 (W3 m ρ c (Proc.devRef .tc main_v3)) shapeCasts_S8192x4096_S4x2048x4096 := by
  show StableHlo.after hostOps2 (W3 m ρ c) (Proc.devRef .tc main_v4) = _
  after_results
  rfl

end Cert.KernelIdeal.HostStretch

end
-- ==== Proof.Spec.lean ====
/-
  The adapted linear layer as ONE function of the six argument arrays, index by index, on the extended reals.

  With weight `W` [4096, 4096], the low-rank factors `B` [4096, 16] and `A` [16, 4096], the magnitudes `M` [1, 4096], the
  input `X` [4, 2048, 4096] and the bias [4096]:
    numer o i      = W o i + 16 · Σ_r B o r · A r i                 (the weight plus sixteen times the low-rank product)
    colNorm i      = sqrt (Σ_o numer o i · numer o i)                (the Euclidean norm of column i)
    newWeight o i  = M 0 i · (numer o i / colNorm i)                 (each column rescaled to magnitude M 0 i)
    result b s o   = Σ_i X b s i · newWeight o i + bias o            (the layer applied to every row of X)
  The sixteen is kept as its f32 word: both programs carry the same word, so it is never evaluated.
-/
import Idealize.ShloMosaic.PureOps.Ideal
import Idealize.ShloMosaic.Lib.ValueIdx

noncomputable section

namespace Cert.Spec

open Idealize.ShloMosaic Idealize.ShloMosaic.ValueIdx

/-- The scale of the low-rank product: the f32 word of 16.0, read on the extended reals. -/
abbrev scale : EReal := Ideal.ofBits .f32 0x41800000#32

/-- The weight plus the scaled low-rank product, at row `o` and column `i`. -/
def numer (W : (⟨2, ![4096, 4096]⟩ : Shape).Idx → EReal) (B : (⟨2, ![4096, 16]⟩ : Shape).Idx → EReal)
    (A : (⟨2, ![16, 4096]⟩ : Shape).Idx → EReal) (o i : Fin 4096) : EReal :=
  W (ix2 o i) + scale * ∑ r : Fin 16, B (ix2 o r) * A (ix2 r i)

/-- The Euclidean norm of column `i` of `numer`: the square root of the sum over the rows of the squares. -/
def colNorm (W : (⟨2, ![4096, 4096]⟩ : Shape).Idx → EReal) (B : (⟨2, ![4096, 16]⟩ : Shape).Idx → EReal)
    (A : (⟨2, ![16, 4096]⟩ : Shape).Idx → EReal) (i : Fin 4096) : EReal :=
  Ideal.sqrt (∑ o : Fin 4096, numer W B A o i * numer W B A o i)

/-- The renormalized weight: column `i` of `numer` divided by its norm and multiplied by the magnitude `M 0 i`. -/
def newWeight (W : (⟨2, ![4096, 4096]⟩ : Shape).Idx → EReal) (B : (⟨2, ![4096, 16]⟩ : Shape).Idx → EReal)
    (A : (⟨2, ![16, 4096]⟩ : Shape).Idx → EReal) (M : (⟨2, ![1, 4096]⟩ : Shape).Idx → EReal) :
    (⟨2, ![4096, 4096]⟩ : Shape).Idx → EReal :=
  fun j => M (ix2 (0 : Fin 1) (j 1)) * Ideal.div (numer W B A (j 0) (j 1)) (colNorm W B A (j 1))

/-- A matrix `N` [4096, 4096] applied to the rows of a two-dimensional input `X2` [8192, 4096], plus a bias row `b2` [1, 4096]:
    at (r, o) the sum over `k` of `X2 r k · N o k`, plus `b2 0 o`. -/
def rowsTimes (X2 : (⟨2, ![8192, 4096]⟩ : Shape).Idx → EReal) (N : (⟨2, ![4096, 4096]⟩ : Shape).Idx → EReal)
    (b2 : (⟨2, ![1, 4096]⟩ : Shape).Idx → EReal) : (⟨2, ![8192, 4096]⟩ : Shape).Idx → EReal :=
  fun j => (∑ k : Fin 4096, X2 (ix2 (j 0) k) * N (ix2 (j 1) k)) + b2 (ix2 (0 : Fin 1) (j 1))

/-- The layer's result at (b, s, o): the row `X b s ·` against row `o` of the renormalized weight, plus `bias o`. -/
def result (X : (⟨3, ![4, 2048, 4096]⟩ : Shape).Idx → EReal) (W : (⟨2, ![4096, 4096]⟩ : Shape).Idx → EReal)
    (bias : (⟨1, ![4096]⟩ : Shape).Idx → EReal) (M : (⟨2, ![1, 4096]⟩ : Shape).Idx → EReal)
    (A : (⟨2, ![16, 4096]⟩ : Shape).Idx → EReal) (B : (⟨2, ![4096, 16]⟩ : Shape).Idx → EReal) :
    (⟨3, ![4, 2048, 4096]⟩ : Shape).Idx → EReal :=
  fun j => (∑ k : Fin 4096, X (ix3 (j 0) (j 1) k) * newWeight W B A M (ix2 (j 2) k)) + bias (ix1 (j 2))

end Cert.Spec

end
-- ==== Proof.PayNorm.lean ====
/-
  The first kernel's stored value at an index. Its body takes the whole low-rank factor `b` [4096, 16], a [16, 256] block `a` of
  the other factor's columns, a [4096, 256] block `w` of the weight's columns and a [1, 256] piece `g` of the magnitudes.
  With  u o q = w o q + 16 · Σ_r b o r · a r q  (the weight plus sixteen times the low-rank product), it sums the squares of
  `u` down each column, takes the square root, divides every row of `u` by that row of norms and multiplies by the magnitudes.
  So at (p, q) the stored block holds  g 0 q · (u p q / sqrt (Σ_o u o q · u o q)).
-/
import proofs.«123649_j18373870092444_1_alg».proof.Proof.Gen.KernelIdeal.Skeleton
import proofs.«123649_j18373870092444_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayNorm

open Cert.KernelIdeal Cert.KernelIdeal.Gen Idealize.ShloMosaic Idealize.ShloMosaic.ValueIdx

theorem lhs_0 (i : S4096x256.Idx) (q : dot_S4096x16_S16x256_S4096x256_1_0_0_1_n_n.contr.Idx) :
    (dot_S4096x16_S16x256_S4096x256_1_0_0_1_n_n.lhsIdx i q 0).val = (i 0).val := by
  unfold DotDims.lhsIdx
  rw [dif_neg (show ¬(0 : Fin S4096x16.rank) ∈ dot_S4096x16_S16x256_S4096x256_1_0_0_1_n_n.lhsBatch by decide), dif_pos (show (0 : Fin S4096x16.rank) ∈ dot_S4096x16_S16x256_S4096x256_1_0_0_1_n_n.lhsNonContracting by decide)]
  rfl
theorem lhs_1 (i : S4096x256.Idx) (q : dot_S4096x16_S16x256_S4096x256_1_0_0_1_n_n.contr.Idx) :
    (dot_S4096x16_S16x256_S4096x256_1_0_0_1_n_n.lhsIdx i q 1).val = (q ⟨0, by decide⟩).val :=
  dot_S4096x16_S16x256_S4096x256_1_0_0_1_n_n.lhsIdx_val_of_single rfl i q
theorem rhs_0 (i : S4096x256.Idx) (q : dot_S4096x16_S16x256_S4096x256_1_0_0_1_n_n.contr.Idx) :
    (dot_S4096x16_S16x256_S4096x256_1_0_0_1_n_n.rhsIdx i q 0).val = (q ⟨0, by decide⟩).val :=
  dot_S4096x16_S16x256_S4096x256_1_0_0_1_n_n.rhsIdx_val_of_single rfl i q
theorem rhs_1 (i : S4096x256.Idx) (q : dot_S4096x16_S16x256_S4096x256_1_0_0_1_n_n.contr.Idx) :
    (dot_S4096x16_S16x256_S4096x256_1_0_0_1_n_n.rhsIdx i q 1).val = (i 1).val := by
  unfold DotDims.rhsIdx
  rw [dif_neg (show ¬(1 : Fin S16x256.rank) ∈ dot_S4096x16_S16x256_S4096x256_1_0_0_1_n_n.rhsBatch by decide), dif_pos (show (1 : Fin S16x256.rank) ∈ dot_S4096x16_S16x256_S4096x256_1_0_0_1_n_n.rhsNonContracting by decide)]
  rfl

/-- The low-rank product into the zero accumulator, at (o, q): the sum over `r` of `b o r · a r q`. -/
theorem lowrank_apply (b : FVec Ideal S4096x16 .f32) (a : FVec Ideal S16x256 .f32) (o : Fin 4096) (q : Fin 256) :
    matmul dot_S4096x16_S16x256_S4096x256_1_0_0_1_n_n (some .fp32) b a (constant S4096x256 .f32 0x00000000#32) (ix2 o q)
      = ∑ r : Fin 16, b (ix2 o r) * a (ix2 r q) := by
  simp only [matmul]
  rw [Ideal.matmul_constant_zero_apply, ← Equiv.sum_comp (contrEquiv1 dot_S4096x16_S16x256_S4096x256_1_0_0_1_n_n 16 rfl rfl).symm]
  refine Finset.sum_congr rfl fun k _ => ?_
  have hk := contrEquiv1_symm_val dot_S4096x16_S16x256_S4096x256_1_0_0_1_n_n 16 rfl rfl k
  have el : dot_S4096x16_S16x256_S4096x256_1_0_0_1_n_n.lhsIdx (ix2 o q) ((contrEquiv1 dot_S4096x16_S16x256_S4096x256_1_0_0_1_n_n 16 rfl rfl).symm k) = ix2 o k := funext fun x => Fin.ext (by
    match x with
    | ⟨0, _⟩ => exact lhs_0 _ _
    | ⟨1, _⟩ => exact (lhs_1 _ _).trans hk)
  have er : dot_S4096x16_S16x256_S4096x256_1_0_0_1_n_n.rhsIdx (ix2 o q) ((contrEquiv1 dot_S4096x16_S16x256_S4096x256_1_0_0_1_n_n 16 rfl rfl).symm k) = ix2 k q := funext fun x => Fin.ext (by
    match x with
    | ⟨0, _⟩ => exact (rhs_0 _ _).trans hk
    | ⟨1, _⟩ => exact rhs_1 _ _)
  rw [el, er]

/-- The weight block plus the scaled low-rank product, at row `o` and column `q` of the block. -/
def tileNumer (w : FVec Ideal S4096x256 .f32) (b : FVec Ideal S4096x16 .f32) (a : FVec Ideal S16x256 .f32) (o : Fin 4096) (q : Fin 256) : EReal :=
  w (ix2 o q) + Spec.scale * ∑ r : Fin 16, b (ix2 o r) * a (ix2 r q)

/-- The body's `u` is `tileNumer`, index by index. -/
theorem numer_apply (w : FVec Ideal S4096x256 .f32) (b : FVec Ideal S4096x16 .f32) (a : FVec Ideal S16x256 .f32) (o : Fin 4096) (q : Fin 256) :
    (addf w (mulf (broadcast S4096x256 (Scalar.ofBits (F := Ideal) .f32 0x41800000#32))
      (matmul dot_S4096x16_S16x256_S4096x256_1_0_0_1_n_n (some .fp32) b a (constant S4096x256 .f32 0x00000000#32)))) (ix2 o q)
      = tileNumer w b a o q := by
  rw [addf_apply, mulf_apply, broadcast_apply, lowrank_apply]
  rfl

/-- A sum down the rows of a [4096, 256] vector, at column `q`: the sum over the rows `o` of the entries (o, q). -/
theorem colsum_apply (v : FVec Ideal S4096x256 .f32) (hacc : (0x00000000#32 : BitVec 32) = 0x00000000#32) (q : Fin 256) :
    multiReduction .add [0] S256 v 0x00000000#32 reduces_S4096x256_S256 (.inl rfl) hacc (ix1 q) = ∑ o : Fin 4096, v (ix2 o q) := by
  refine (Ideal.multiReduction_add_single v 0x00000000#32 reduces_S4096x256_S256 (.inl rfl) hacc (ix1 q)).trans ?_
  refine Finset.sum_congr rfl fun o _ => congrArg v (funext fun x => Fin.ext ?_)
  match x with
  | ⟨0, _⟩ => rfl
  | ⟨1, _⟩ => rfl

/-- The stored block at (p, q). -/
theorem stored_apply (b : FVec Ideal S4096x16 .f32) (a : FVec Ideal S16x256 .f32) (w : FVec Ideal S4096x256 .f32) (g : FVec Ideal S1x256 .f32)
    (p : Fin 4096) (q : Fin 256) :
    (k0_pay1 (F := Ideal) b a w g) (ix2 p q)
      = g (ix2 (0 : Fin 1) q) * Ideal.div (tileNumer w b a p q) (Ideal.sqrt (∑ o : Fin 4096, tileNumer w b a o q * tileNumer w b a o q)) := by
  unfold k0_pay1
  rw [mulf_apply, broadcastTo_1b_ab_apply, divf_apply, broadcastTo_1b_ab_apply, numer_apply]
  show g _ * Ideal.div _ (Ideal.sqrt (shapeCast S1x256 _ shapeCasts_S256_S1x256 (ix2 (0 : Fin 1) q))) = _
  rw [shapeCast_a_1a_apply, colsum_apply]
  refine congrArg (fun s => g (ix2 (0 : Fin 1) q) * Ideal.div (tileNumer w b a p q) (Ideal.sqrt s)) (Finset.sum_congr rfl fun o _ => ?_)
  rw [mulf_apply, numer_apply]

end Cert.KernelIdeal.PayNorm

end
-- ==== Proof.RegionNorm.lean ====
/-
  What the first kernel leaves in its result array, as one function of the four arrays it reads.
  The grid has 16 points. At point `t` the kernel reads columns 256·t … 256·t + 255 of the weight `W` [4096, 4096], of the factor `A`
  [16, 4096] and of the magnitudes `M` [1, 4096], and the whole factor `B` [4096, 16]; it writes columns 256·t … 256·t + 255 of the
  result, all 4096 rows at once. A column's norm needs every row of that column and no other column, so the stored block at (p, q),
  g 0 q · (u p q / sqrt (Σ_o u o q · u o q)) with u the block's weight plus sixteen times its low-rank product, is
  `Spec.newWeight W B A M` at (p, 256·t + q). The 16 column blocks tile the [4096, 4096] array, so it ends holding `Spec.newWeight W B A M`.
-/
import proofs.«123649_j18373870092444_1_alg».proof.Proof.Gen.KernelIdeal.Frame
import proofs.«123649_j18373870092444_1_alg».proof.Proof.Spec
import proofs.«123649_j18373870092444_1_alg».proof.Proof.PayNorm
import Idealize.ShloMosaic.Lib.Pipeline.Value
import Idealize.ShloMosaic.Lib.Tactic

set_option maxRecDepth 16384

noncomputable section

namespace Cert.KernelIdeal.RegionNorm

open Cert.KernelIdeal Cert.KernelIdeal.Gen
open Idealize.ShloMosaic Idealize.ShloMosaic.TcCoe Idealize.SL.Sem Idealize.ShloMosaic.ValueIdx
open Idealize.ShloMosaic.Pipeline (Dat)

-- The contents of the TensorCore's buffers when the kernel is entered: a parameter.
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the weight, the second factor and the magnitudes move with the result's column block; the
    first factor does not move; no window moves along the rows. -/
theorem idx_facts : ∀ t : Fin cfg0.N, win0_0.index t (0 : Fin 2) = 0
    ∧ win0_0.index t (1 : Fin 2) = win0_4.index t (1 : Fin 2)
    ∧ win0_1.index t (0 : Fin 2) = 0
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) = 0 ∧ win0_4.index t (1 : Fin 2) ≤ 15 :=
  (by decide +kernel : ∀ t : Fin grid0.N, _)

/-- Every column block of the result is some point's. -/
theorem idx_onto : ∀ q1 : Fin 16, ∃ t : Fin cfg0.N, win0_4.index t = ![0, q1.val] :=
  (by decide +kernel : ∀ q1 : Fin 16, ∃ t : Fin grid0.N, win0_4.index t = ![0, q1.val])

/-- The weight's block at a point, read at `y`, is the array at the block's offset plus `y`. -/
theorem weight_read (c : Dev nD) (t : Fin cfg0.N) (y : S4096x256.Idx) (J : S4096x4096.Idx)
    (h0 : (J 0).val = win0_0.index t (0 : Fin 2) * 4096 + (y 0).val) (h1 : (J 1).val = win0_0.index t (1 : Fin 2) * 256 + (y 1).val) :
    (iblk0 V c 0 t : Vec Ideal S4096x256 .f32) y = (V c main_arg1 : S4096x4096.Idx → EReal) J := by
  unfold iblk0
  rw [View.read_apply]
  show V c main_arg1 _ = V c main_arg1 _
  congr 1
  funext a
  apply Fin.ext
  match a with
  | ⟨0, _⟩ => show win0_0.index t (0 : Fin 2) * 4096 + 1 * (y 0).val = (J 0).val; omega
  | ⟨1, _⟩ => show win0_0.index t (1 : Fin 2) * 256 + 1 * (y 1).val = (J 1).val; omega

/-- The first factor's block at a point, read at `y`. -/
theorem left_read (c : Dev nD) (t : Fin cfg0.N) (y : S4096x16.Idx) (J : S4096x16.Idx)
    (h0 : (J 0).val = win0_1.index t (0 : Fin 2) * 4096 + (y 0).val) (h1 : (J 1).val = win0_1.index t (1 : Fin 2) * 16 + (y 1).val) :
    (iblk0 V c 1 t : Vec Ideal S4096x16 .f32) y = (V c main_arg5 : S4096x16.Idx → EReal) J := by
  unfold iblk0
  rw [View.read_apply]
  show V c main_arg5 _ = V c main_arg5 _
  congr 1
  funext a
  apply Fin.ext
  match a with
  | ⟨0, _⟩ => show win0_1.index t (0 : Fin 2) * 4096 + 1 * (y 0).val = (J 0).val; omega
  | ⟨1, _⟩ => show win0_1.index t (1 : Fin 2) * 16 + 1 * (y 1).val = (J 1).val; omega

/-- The second factor's block at a point, read at `y`. -/
theorem right_read (c : Dev nD) (t : Fin cfg0.N) (y : S16x256.Idx) (J : S16x4096.Idx)
    (h0 : (J 0).val = win0_2.index t (0 : Fin 2) * 16 + (y 0).val) (h1 : (J 1).val = win0_2.index t (1 : Fin 2) * 256 + (y 1).val) :
    (iblk0 V c 2 t : Vec Ideal S16x256 .f32) y = (V c main_arg4 : S16x4096.Idx → EReal) J := by
  unfold iblk0
  rw [View.read_apply]
  show V c main_arg4 _ = V c main_arg4 _
  congr 1
  funext a
  apply Fin.ext
  match a with
  | ⟨0, _⟩ => show win0_2.index t (0 : Fin 2) * 16 + 1 * (y 0).val = (J 0).val; omega
  | ⟨1, _⟩ => show win0_2.index t (1 : Fin 2) * 256 + 1 * (y 1).val = (J 1).val; omega

/-- The magnitudes' piece at a point, read at `y`. -/
theorem magnitude_read (c : Dev nD) (t : Fin cfg0.N) (y : S1x256.Idx) (J : S1x4096.Idx)
    (h0 : (J 0).val = win0_3.index t (0 : Fin 2) * 1 + (y 0).val) (h1 : (J 1).val = win0_3.index t (1 : Fin 2) * 256 + (y 1).val) :
    (iblk0 V c 3 t : Vec Ideal S1x256 .f32) y = (V c main_arg3 : S1x4096.Idx → EReal) J := by
  unfold iblk0
  rw [View.read_apply]
  show V c main_arg3 _ = V c main_arg3 _
  congr 1
  funext a
  apply Fin.ext
  match a with
  | ⟨0, _⟩ => show win0_3.index t (0 : Fin 2) * 1 + 1 * (y 0).val = (J 0).val; omega
  | ⟨1, _⟩ => show win0_3.index t (1 : Fin 2) * 256 + 1 * (y 1).val = (J 1).val; omega

/-- The stored block at `y` is `Spec.newWeight` at `J`, once `J` is `y`'s row and the blocks read the arrays along `J`'s column. -/
theorem stored_eq (b : FVec Ideal S4096x16 .f32) (a : FVec Ideal S16x256 .f32) (w : FVec Ideal S4096x256 .f32) (g : FVec Ideal S1x256 .f32)
    (W : S4096x4096.Idx → EReal) (B : S4096x16.Idx → EReal) (A : S16x4096.Idx → EReal) (M : S1x4096.Idx → EReal)
    (J : S4096x4096.Idx) (y : S4096x256.Idx)
    (hJ : (J 0 : Fin 4096) = (y 0 : Fin 4096))
    (hw : ∀ o : Fin 4096, w (ix2 o (y 1)) = W (ix2 o (J 1)))
    (hb : ∀ (o : Fin 4096) (r : Fin 16), b (ix2 o r) = B (ix2 o r))
    (ha : ∀ r : Fin 16, a (ix2 r (y 1)) = A (ix2 r (J 1)))
    (hg : g (ix2 (0 : Fin 1) (y 1)) = M (ix2 (0 : Fin 1) (J 1))) :
    (k0_pay1 (F := Ideal) b a w g) y = Spec.newWeight W B A M J := by
  have hn : ∀ o : Fin 4096, PayNorm.tileNumer w b a o (y 1) = Spec.numer W B A o (J 1) := fun o => by
    unfold PayNorm.tileNumer Spec.numer
    rw [hw o]
    exact congrArg (fun s => W (ix2 o (J 1)) + Spec.scale * s) (Finset.sum_congr rfl fun r _ => by rw [hb o r, ha r])
  refine (congrArg (k0_pay1 (F := Ideal) b a w g) (eq_ix2 y)).trans ((PayNorm.stored_apply b a w g (y 0) (y 1)).trans ?_)
  unfold Spec.newWeight Spec.colNorm
  rw [hg, hn (y 0), hJ]
  exact congrArg (fun s => M (ix2 (0 : Fin 1) (J 1)) * Ideal.div (Spec.numer W B A (y 0) (J 1)) (Ideal.sqrt s))
    (Finset.sum_congr rfl fun o _ => by rw [hn o])

/-- What point `t` writes back is block `t` of `Spec.newWeight` of the four arrays as the kernel finds them. -/
theorem flushed_eq (c : Dev nD) (t : Fin cfg0.N) :
    (dat0 V c).flushed 4 t = ((cfg0.win 4).blk t).view.read (Elt Ideal)
      (Spec.newWeight (V c main_arg1) (V c main_arg5) (V c main_arg4) (V c main_arg3)) := by
  show (cfg0.win 4).cut (grid0.coords t) ((dat0 V c).after 4 t) = _
  rw [after0_4]
  unfold out0_4
  rw [View.canon_unit_zero hz]
  simp only [View.ld_unit_zero (S := S4096x256) hz, View.ld_unit_zero (S := S4096x16) hz, View.ld_unit_zero (S := S16x256) hz,
    View.ld_unit_zero (S := S1x256) hz]
  obtain ⟨e00, e01, e10, e11, e20, e21, e30, e31, e40, -⟩ := idx_facts t
  funext j
  show (k0_pay1 (F := Ideal) (iblk0 V c 1 t) (iblk0 V c 2 t) (iblk0 V c 0 t) (iblk0 V c 3 t)) j
    = Spec.newWeight (V c main_arg1) (V c main_arg5) (V c main_arg4) (V c main_arg3) (((cfg0.win 4).blk t).view.emb j)
  refine stored_eq (iblk0 V c 1 t) (iblk0 V c 2 t) (iblk0 V c 0 t) (iblk0 V c 3 t)
    (V c main_arg1) (V c main_arg5) (V c main_arg4) (V c main_arg3)
    (((cfg0.win 4).blk t).view.emb j) j ?_ (fun o => ?_) (fun o r => ?_) (fun r => ?_) ?_
  · apply Fin.ext
    show win0_4.index t (0 : Fin 2) * 4096 + 1 * (j 0).val = (j 0).val; omega
  · refine weight_read V c t _ _ ?_ ?_
    · show o.val = win0_0.index t (0 : Fin 2) * 4096 + o.val; omega
    · show win0_4.index t (1 : Fin 2) * 256 + 1 * (j 1).val = win0_0.index t (1 : Fin 2) * 256 + (j 1).val; omega
  · refine left_read V c t _ _ ?_ ?_
    · show o.val = win0_1.index t (0 : Fin 2) * 4096 + o.val; omega
    · show r.val = win0_1.index t (1 : Fin 2) * 16 + r.val; omega
  · refine right_read V c t _ _ ?_ ?_
    · show r.val = win0_2.index t (0 : Fin 2) * 16 + r.val; omega
    · show win0_4.index t (1 : Fin 2) * 256 + 1 * (j 1).val = win0_2.index t (1 : Fin 2) * 256 + (j 1).val; omega
  · refine magnitude_read V c t _ _ ?_ ?_
    · show 0 = win0_3.index t (0 : Fin 2) * 1 + 0; omega
    · show win0_4.index t (1 : Fin 2) * 256 + 1 * (j 1).val = win0_3.index t (1 : Fin 2) * 256 + (j 1).val; omega

/-- An index of the result array is in point `t`'s block iff each coordinate is in the block's range on its axis. -/
theorem mem_blk (t : Fin cfg0.N) (i : S4096x4096.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v0).slice (win0_4.rect t)).set ↔ _
  rw [View.set_slice_whole, Rect.mem_set_unit]
  exact Iff.rfl

/-- Every index of the result array is in the block of the point whose column block is `column / 256`. -/
theorem cover (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 1).val / 256, by omega⟩
  have q0 : win0_4.index t (0 : Fin 2) = 0 := congrFun ht 0
  have q1 : win0_4.index t (1 : Fin 2) = (i 1).val / 256 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-- The result array after the kernel's run. -/
theorem final (c : Dev nD) : (dat0 V c).arrAt 4 cfg0.N = Spec.newWeight (V c main_arg1) (V c main_arg5) (V c main_arg4) (V c main_arg3) :=
  (dat0 V c).arrAt_eq_of_cover 4 (Spec.newWeight (V c main_arg1) (V c main_arg5) (V c main_arg4) (V c main_arg3))
    (fun t _ => flushed_eq V c t) cover

end Cert.KernelIdeal.RegionNorm

end
-- ==== Proof.PayRows.lean ====
/-
  The second kernel's stored value at an index. Its body takes a [256, 4096] block `x` of the input rows, a [512, 4096] block
  `n` of the renormalized weight's rows and a [1, 512] piece `b` of the bias row; it narrows `x` and `n` to bf16 (the identity on
  the extended reals), contracts the two over their second axes into a zero accumulator, and adds the bias row to every row.
  So at (p, q) the stored block holds  Σ_k x p k · n q k + b 0 q.
-/
import proofs.«123649_j18373870092444_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRows

open Cert.KernelIdeal Cert.KernelIdeal.Gen Idealize.ShloMosaic Idealize.ShloMosaic.ValueIdx

/-! The contraction's dimension numbers: both operands contract their second axis; the output's rows are the left operand's
    rows, its columns the right operand's rows. The four lemmas below read the operand indices off them, axis by axis. -/

theorem lhs_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- The contraction into the zero accumulator, at (p, q): the sum over `k` of `l p k · r q k`. -/
theorem contract_apply (l : FVec Ideal S256x4096 .bf16) (r : FVec Ideal S512x4096 .bf16) (p : Fin 256) (q : Fin 512) :
    matmul dot_S256x4096_S512x4096_S256x512_1_1_0_0_n_n none l r (constant S256x512 .f32 0x00000000#32) (ix2 p q)
      = ∑ k : Fin 4096, l (ix2 p k) * r (ix2 q k) := by
  simp only [matmul]
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q) ((contrEquiv1 dot_S256x4096_S512x4096_S256x512_1_1_0_0_n_n 4096 rfl rfl).symm k) = ix2 p k := funext fun a => Fin.ext (by
    match a with
    | ⟨0, _⟩ => exact lhs_0 _ _
    | ⟨1, _⟩ => exact (lhs_1 _ _).trans hk)
  have er : dot_S256x4096_S512x4096_S256x512_1_1_0_0_n_n.rhsIdx (ix2 p q) ((contrEquiv1 dot_S256x4096_S512x4096_S256x512_1_1_0_0_n_n 4096 rfl rfl).symm k) = ix2 q k := funext fun a => Fin.ext (by
    match a with
    | ⟨0, _⟩ => exact rhs_0 _ _
    | ⟨1, _⟩ => exact (rhs_1 _ _).trans hk)
  rw [el, er]

/-- The stored block at (p, q): the row `x p ·` against the row `n q ·`, plus the bias piece at `q`. -/
theorem stored_apply (x : Vec Ideal S256x4096 .f32) (n : Vec Ideal S512x4096 .f32) (b : Vec Ideal S1x512 .f32) (p : Fin 256) (q : Fin 512) :
    (k1_pay1 (F := Ideal) x n b) (ix2 p q) = (∑ k : Fin 4096, x (ix2 p k) * n (ix2 q k)) + b (ix2 (0 : Fin 1) q) := by
  unfold k1_pay1
  simp only [shapeCast_self]
  rw [addf_apply, contract_apply, broadcastTo_1b_ab_apply]
  rfl

end Cert.KernelIdeal.PayRows

end
-- ==== Proof.RegionRows.lean ====
/-
  What the second kernel leaves in its result array, as one function of the three arrays it reads.
  The grid has 32 × 8 points. At point (i, j) the kernel reads rows 256·i … 256·i + 255 of the input rows `X2` [8192, 4096], rows
  512·j … 512·j + 511 of the matrix `N` [4096, 4096], and columns 512·j … 512·j + 511 of the bias row `b2` [1, 4096], all contraction
  columns at once; it writes the [256, 512] block (i, j) of the result. The stored block at (p, q) is  Σ_k x p k · n q k + b 0 q,
  which is  Σ_k X2 (256·i + p) k · N (512·j + q) k + b2 0 (512·j + q) : block (i, j) of `Spec.rowsTimes X2 N b2`. The 256 blocks
  tile the [8192, 4096] array, so the array ends holding `Spec.rowsTimes X2 N b2`.
-/
import proofs.«123649_j18373870092444_1_alg».proof.Proof.Gen.KernelIdeal.Frame
import proofs.«123649_j18373870092444_1_alg».proof.Proof.Spec
import proofs.«123649_j18373870092444_1_alg».proof.Proof.PayRows
import Idealize.ShloMosaic.Lib.Pipeline.Value
import Idealize.ShloMosaic.Lib.Tactic

set_option maxRecDepth 16384

noncomputable section

namespace Cert.KernelIdeal.RegionRows

open Cert.KernelIdeal Cert.KernelIdeal.Gen
open Idealize.ShloMosaic Idealize.ShloMosaic.TcCoe Idealize.SL.Sem Idealize.ShloMosaic.ValueIdx
open Idealize.ShloMosaic.Pipeline (Dat)

-- The contents of the TensorCore's buffers when the kernel is entered: a parameter.
variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input rows move with the result's row block, the matrix rows and the bias columns with
    the result's column block, and none moves along the contraction axis. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 31 ∧ win1_3.index t (1 : Fin 2) ≤ 7 :=
  (by decide +kernel : ∀ t : Fin grid1.N, _)

/-- Every block of the result is some point's. -/
theorem idx_onto : ∀ (q0 : Fin 32) (q1 : Fin 8), ∃ t : Fin cfg1.N, win1_3.index t = ![q0.val, q1.val] :=
  (by decide +kernel : ∀ (q0 : Fin 32) (q1 : Fin 8), ∃ t : Fin grid1.N, win1_3.index t = ![q0.val, q1.val])

/-- The input-rows block at a point, read at `y`, is the array at the block's offset plus `y`. -/
theorem rows_read (c : Dev nD) (t : Fin cfg1.N) (y : S256x4096.Idx) (J : S8192x4096.Idx)
    (h0 : (J 0).val = win1_0.index t (0 : Fin 2) * 256 + (y 0).val) (h1 : (J 1).val = win1_0.index t (1 : Fin 2) * 4096 + (y 1).val) :
    (iblk1 V c 0 t : Vec Ideal S256x4096 .f32) y = (V c main_v1 : S8192x4096.Idx → EReal) J := by
  unfold iblk1
  rw [View.read_apply]
  show V c main_v1 _ = V c main_v1 _
  congr 1
  funext a
  apply Fin.ext
  match a with
  | ⟨0, _⟩ => show win1_0.index t (0 : Fin 2) * 256 + 1 * (y 0).val = (J 0).val; omega
  | ⟨1, _⟩ => show win1_0.index t (1 : Fin 2) * 4096 + 1 * (y 1).val = (J 1).val; omega

/-- The matrix-rows block at a point, read at `y`. -/
theorem matrix_read (c : Dev nD) (t : Fin cfg1.N) (y : S512x4096.Idx) (J : S4096x4096.Idx)
    (h0 : (J 0).val = win1_1.index t (0 : Fin 2) * 512 + (y 0).val) (h1 : (J 1).val = win1_1.index t (1 : Fin 2) * 4096 + (y 1).val) :
    (iblk1 V c 1 t : Vec Ideal S512x4096 .f32) y = (V c main_v0 : S4096x4096.Idx → EReal) J := by
  unfold iblk1
  rw [View.read_apply]
  show V c main_v0 _ = V c main_v0 _
  congr 1
  funext a
  apply Fin.ext
  match a with
  | ⟨0, _⟩ => show win1_1.index t (0 : Fin 2) * 512 + 1 * (y 0).val = (J 0).val; omega
  | ⟨1, _⟩ => show win1_1.index t (1 : Fin 2) * 4096 + 1 * (y 1).val = (J 1).val; omega

/-- The bias-row piece at a point, read at `y`. -/
theorem bias_read (c : Dev nD) (t : Fin cfg1.N) (y : S1x512.Idx) (J : S1x4096.Idx)
    (h0 : (J 0).val = win1_2.index t (0 : Fin 2) * 1 + (y 0).val) (h1 : (J 1).val = win1_2.index t (1 : Fin 2) * 512 + (y 1).val) :
    (iblk1 V c 2 t : Vec Ideal S1x512 .f32) y = (V c main_v2 : S1x4096.Idx → EReal) J := by
  unfold iblk1
  rw [View.read_apply]
  show V c main_v2 _ = V c main_v2 _
  congr 1
  funext a
  apply Fin.ext
  match a with
  | ⟨0, _⟩ => show win1_2.index t (0 : Fin 2) * 1 + 1 * (y 0).val = (J 0).val; omega
  | ⟨1, _⟩ => show win1_2.index t (1 : Fin 2) * 512 + 1 * (y 1).val = (J 1).val; omega

/-- The stored block at `y` is `Spec.rowsTimes` at `J`, once the three blocks read the three arrays along `J`'s row and column. -/
theorem stored_eq (x : Vec Ideal S256x4096 .f32) (n : Vec Ideal S512x4096 .f32) (b : Vec Ideal S1x512 .f32)
    (X2 : S8192x4096.Idx → EReal) (N : S4096x4096.Idx → EReal) (b2 : S1x4096.Idx → EReal) (J : S8192x4096.Idx) (y : S256x512.Idx)
    (hx : ∀ k : Fin 4096, x (ix2 (y 0) k) = X2 (ix2 (J 0) k))
    (hn : ∀ k : Fin 4096, n (ix2 (y 1) k) = N (ix2 (J 1) k))
    (hb : b (ix2 (0 : Fin 1) (y 1)) = b2 (ix2 (0 : Fin 1) (J 1))) :
    (k1_pay1 (F := Ideal) x n b) y = Spec.rowsTimes X2 N b2 J := by
  refine (congrArg (k1_pay1 (F := Ideal) x n b) (eq_ix2 y)).trans ((PayRows.stored_apply x n b (y 0) (y 1)).trans ?_)
  unfold Spec.rowsTimes
  rw [hb]
  exact congrArg (· + b2 (ix2 (0 : Fin 1) (J 1))) (Finset.sum_congr rfl fun k _ => by rw [hx k, hn k])

/-- What point `t` writes back is block `t` of `Spec.rowsTimes` of the three arrays as the kernel finds them. -/
theorem flushed_eq (c : Dev nD) (t : Fin cfg1.N) :
    (dat1 V c).flushed 3 t = ((cfg1.win 3).blk t).view.read (Elt Ideal) (Spec.rowsTimes (V c main_v1) (V c main_v0) (V c main_v2)) := by
  show (cfg1.win 3).cut (grid1.coords t) ((dat1 V c).after 3 t) = _
  rw [after1_3]
  unfold out1_3
  rw [View.canon_unit_zero hz]
  simp only [View.ld_unit_zero (S := S256x4096) hz, View.ld_unit_zero (S := S512x4096) hz, View.ld_unit_zero (S := S1x512) hz]
  obtain ⟨e00, e01, e10, e11, e20, e21, -, -⟩ := idx_facts t
  funext j
  show (k1_pay1 (F := Ideal) (iblk1 V c 0 t) (iblk1 V c 1 t) (iblk1 V c 2 t)) j
    = Spec.rowsTimes (V c main_v1) (V c main_v0) (V c main_v2) (((cfg1.win 3).blk t).view.emb j)
  refine stored_eq (iblk1 V c 0 t) (iblk1 V c 1 t) (iblk1 V c 2 t) (V c main_v1) (V c main_v0) (V c main_v2)
    (((cfg1.win 3).blk t).view.emb j) j (fun k => ?_) (fun k => ?_) ?_
  · refine rows_read V c t _ _ ?_ ?_
    · show win1_3.index t (0 : Fin 2) * 256 + 1 * (j 0).val = win1_0.index t (0 : Fin 2) * 256 + (j 0).val; omega
    · show k.val = win1_0.index t (1 : Fin 2) * 4096 + k.val; omega
  · refine matrix_read V c t _ _ ?_ ?_
    · show win1_3.index t (1 : Fin 2) * 512 + 1 * (j 1).val = win1_1.index t (0 : Fin 2) * 512 + (j 1).val; omega
    · show k.val = win1_1.index t (1 : Fin 2) * 4096 + k.val; omega
  · refine bias_read V c t _ _ ?_ ?_
    · show 0 = win1_2.index t (0 : Fin 2) * 1 + 0; omega
    · show win1_3.index t (1 : Fin 2) * 512 + 1 * (j 1).val = win1_2.index t (1 : Fin 2) * 512 + (j 1).val; omega

/-- An index of the result array is in point `t`'s block iff each coordinate is in the block's range on its axis. -/
theorem mem_blk (t : Fin cfg1.N) (i : S8192x4096.Idx) :
    i ∈ ((cfg1.win 3).blk t).view.set ↔ ∀ a : Fin 2, win1_3.index t a * S256x512.size a ≤ (i a).val ∧ (i a).val < win1_3.index t a * S256x512.size a + S256x512.size a := by
  show i ∈ ((View.whole main_v3).slice (win1_3.rect t)).set ↔ _
  rw [View.set_slice_whole, Rect.mem_set_unit]
  exact Iff.rfl

/-- Every index of the result array is in the block of the point whose row block is `row / 256` and column block `column / 512`. -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := idx_onto ⟨(i 0).val / 256, by omega⟩ ⟨(i 1).val / 512, by omega⟩
  have q0 : win1_3.index t (0 : Fin 2) = (i 0).val / 256 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 512 ≤ (i 1).val ∧ (i 1).val < win1_3.index t (1 : Fin 2) * 512 + 512; omega

/-- The result array after the kernel's run. -/
theorem final (c : Dev nD) : (dat1 V c).arrAt 3 cfg1.N = Spec.rowsTimes (V c main_v1) (V c main_v0) (V c main_v2) :=
  (dat1 V c).arrAt_eq_of_cover 3 (Spec.rowsTimes (V c main_v1) (V c main_v0) (V c main_v2)) (fun t _ => flushed_eq V c t) cover

end Cert.KernelIdeal.RegionRows

end
-- ==== Proof.Reshape.lean ====
/-
  The kernel applies the matrix to the input re-read as 8192 rows, with the bias re-read as one row, and re-reads the [8192, 4096]
  result as [4, 2048, 4096]. Row-major order pairs (b, s, ·) with row 2048·b + s, so the result at (b, s, o) is the row
  2048·b + s of the input against row o of the matrix, plus the bias at o: the three reshapes cancel.
-/
import proofs.«123649_j18373870092444_1_alg».proof.Proof.Spec
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

theorem rows_reshaped (X : (⟨3, ![4, 2048, 4096]⟩ : Shape).Idx → EReal) (N : (⟨2, ![4096, 4096]⟩ : Shape).Idx → EReal)
    (bias : (⟨1, ![4096]⟩ : Shape).Idx → EReal)
    (h1 : (⟨3, ![4, 2048, 4096]⟩ : Shape).ShapeCasts ⟨2, ![8192, 4096]⟩) (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩ (rowsTimes (shapeCast ⟨2, ![8192, 4096]⟩ X h1) N (shapeCast ⟨2, ![1, 4096]⟩ bias h2)) h3
      = fun j => (∑ k : Fin 4096, X (ix3 (j 0) (j 1) k) * N (ix2 (j 2) k)) + bias (ix1 (j 2)) := by
  funext j
  obtain ⟨b, s, o, rfl⟩ : ∃ (b : Fin 4) (s : Fin 2048) (o : Fin 4096), j = ix3 b s o := ⟨j 0, j 1, j 2, eq_ix3 j⟩
  have hR : b.val * 2048 + s.val < 8192 := by have := b.isLt; have := s.isLt; omega
  rw [shapeCast_apply _ h3 (ix3 b s o) (ix2 (⟨b.val * 2048 + s.val, hR⟩ : Fin 8192) o) (by
    rw [Shape.rowMajor_val_two, Shape.rowMajor_val_three]; rfl)]
  show (∑ k : Fin 4096, shapeCast ⟨2, ![8192, 4096]⟩ X h1 (ix2 (⟨b.val * 2048 + s.val, hR⟩ : Fin 8192) k) * N (ix2 o k))
      + shapeCast ⟨2, ![1, 4096]⟩ bias h2 (ix2 (0 : Fin 1) o) = _
  rw [shapeCast_a_1a_apply]
  refine congrArg (· + bias (ix1 o)) (Finset.sum_congr rfl fun k _ => ?_)
  rw [shapeCast_apply X h1 (ix2 (⟨b.val * 2048 + s.val, hR⟩ : Fin 8192) k) (ix3 b s k) (by
    rw [Shape.rowMajor_val_two, Shape.rowMajor_val_three]; rfl)]

end Cert.Spec

end
-- ==== Proof.KernelValue.lean ====
/-
  The kernel program's result buffer, as `Spec.result` of the six arguments as launched. The fold through the four segments:
  the first kernel leaves `Spec.newWeight` of the weight, the two factors and the magnitudes in its result array; the reshapes
  between the kernels re-read the input as 8192 rows and the bias as one row and leave that array alone; the second kernel leaves
  `Spec.rowsTimes` of the three in its result array; the last reshape re-reads it as [4, 2048, 4096], and the three reshapes cancel.
-/
import proofs.«123649_j18373870092444_1_alg».proof.Proof.KernelRun
import proofs.«123649_j18373870092444_1_alg».proof.Proof.HostStretch
import proofs.«123649_j18373870092444_1_alg».proof.Proof.RegionNorm
import proofs.«123649_j18373870092444_1_alg».proof.Proof.RegionRows
import proofs.«123649_j18373870092444_1_alg».proof.Proof.Reshape

set_option maxRecDepth 16384

noncomputable section

namespace Cert.KernelIdeal.WholeValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the first kernel's exit its result array holds the renormalized weight of the arguments as launched. -/
theorem weight_exit (c : Dev nD) : W1 m ρ c (Proc.devRef .tc main_v0)
    = Spec.newWeight (m ((c : Thread nD τ).loc main_arg1)) (m ((c : Thread nD τ).loc main_arg5))
        (m ((c : Thread nD τ).loc main_arg4)) (m ((c : Thread nD τ).loc main_arg3)) :=
  (W1_arr m ρ c 4).trans (RegionNorm.final (V0 m ρ) c)

/-- At the second kernel's exit its result array holds the new weight applied to the input's 8192 rows, plus the bias row. -/
theorem rows_exit (c : Dev nD) : W3 m ρ c (Proc.devRef .tc main_v3)
    = Spec.rowsTimes (shapeCast S8192x4096 (m ((c : Thread nD τ).loc main_arg0)) shapeCasts_S4x2048x4096_S8192x4096)
        (Spec.newWeight (m ((c : Thread nD τ).loc main_arg1)) (m ((c : Thread nD τ).loc main_arg5))
          (m ((c : Thread nD τ).loc main_arg4)) (m ((c : Thread nD τ).loc main_arg3)))
        (shapeCast S1x4096 (m ((c : Thread nD τ).loc main_arg2)) shapeCasts_S4096_S1x4096) := by
  refine ((W3_arr m ρ c 3).trans (RegionRows.final (V2 m ρ) c)).trans ?_
  show Spec.rowsTimes (W2 m ρ c (Proc.devRef .tc main_v1)) (W2 m ρ c (Proc.devRef .tc main_v0)) (W2 m ρ c (Proc.devRef .tc main_v2)) = _
  rw [HostStretch.rows_entry m ρ c, HostStretch.weight_entry m ρ c, HostStretch.bias_entry m ρ c, weight_exit m ρ c]

/-- At the return the result buffer holds `Spec.result` of the six arguments as launched. -/
theorem result_value (c : Dev nD) : W4 m ρ c (Proc.devRef .tc main_v4)
    = Spec.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [HostStretch.result_exit m ρ c, rows_exit m ρ c]
  exact Spec.rows_reshaped _ _ _ _ _ _

/-- Every weakly fair execution of the kernel program terminates, nothing faulting, with the result buffer at `Spec.result` of
    the arguments and the arguments as launched. -/
theorem run : θ_run defs (onTc (τ := τ) (main (F := Ideal))) ⟨m, fun _ => 0, ρ⟩ (fun r => ∀ c : Dev nD,
      r.2.mem ((c.tc : Thread nD τ).loc main_v4)
        = Spec.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (Whole.run_result m ρ)

end Cert.KernelIdeal.WholeValue

end
-- ==== Proof.RefValue.lean ====
/-
  The reference's result is `Spec.result` of its six arguments, index by index. The reference computes the low-rank product over
  the whole [4096, 4096] weight, adds sixteen times it to the weight, sums the squares down each column from an initial zero,
  takes the square root, divides, multiplies by the magnitudes, contracts the input's last axis with the new weight's second
  axis and adds the bias along the last axis: the same operations as `Spec`, read one stage at a time.
-/
import proofs.«123649_j18373870092444_1_alg».proof.Defs
import proofs.«123649_j18373870092444_1_alg».proof.Proof.Gen.ReferenceIdeal.Read
import proofs.«123649_j18373870092444_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

variable (x0 : (⟨S4x2048x4096, .f32⟩ : BufTy).Contents (Elt Ideal)) (x1 : (⟨S4096x4096, .f32⟩ : BufTy).Contents (Elt Ideal))
  (x2 : (⟨S4096, .f32⟩ : BufTy).Contents (Elt Ideal)) (x3 : (⟨S1x4096, .f32⟩ : BufTy).Contents (Elt Ideal))
  (x4 : (⟨S16x4096, .f32⟩ : BufTy).Contents (Elt Ideal)) (x5 : (⟨S4096x16, .f32⟩ : BufTy).Contents (Elt Ideal))

/-- The weight plus sixteen times the low-rank product, at (o, i). -/
theorem numer_eq (o i : Fin 4096) : val_main_v3 (F := Ideal) x1 x4 x5 (ix2 o i) = Spec.numer x1 x5 x4 o i := by
  have hl : ∀ k : Fin 16, lidx_main_v0 (ix2 o i) k = ix2 o k := fun k => funext fun a => by
    match a with | ⟨0, _⟩ => rfl | ⟨1, _⟩ => rfl
  have hr : ∀ k : Fin 16, ridx_main_v0 (ix2 o i) k = ix2 k i := fun k => funext fun a => by
    match a with | ⟨0, _⟩ => rfl | ⟨1, _⟩ => rfl
  rw [val_main_v3_apply, val_main_v2_apply, val_main_v1_apply, val_main_cst_apply, val_main_v0_apply]
  simp only [hl, hr]
  rfl

/-- The sum of the squares down column `i`, from the initial zero. -/
theorem colsq_eq (i : Fin 4096) :
    val_main_v5 (F := Ideal) x1 x4 x5 (ix1 i) = ∑ o : Fin 4096, Spec.numer x1 x5 x4 o i * Spec.numer x1 x5 x4 o i := by
  have hi : ∀ k : Fin 4096, idx_main_v5 (ix1 i) k = ix2 k i := fun k => funext fun a => by
    match a with | ⟨0, _⟩ => rfl | ⟨1, _⟩ => rfl
  rw [val_main_v5_apply, val_main_cst_0_apply]
  show Ideal.ofBits .f32 0x00000000#32 + _ = _
  rw [Ideal.ofBits_zero_f32, zero_add]
  refine Finset.sum_congr rfl fun k _ => ?_
  rw [val_main_v4_apply, hi k, numer_eq]
  rfl

/-- The renormalized weight at (o, i). -/
theorem newWeight_eq (o i : Fin 4096) :
    val_main_v11 (F := Ideal) x1 x3 x4 x5 (ix2 o i) = Spec.newWeight x1 x5 x4 x3 (ix2 o i) := by
  have h10 : idx_main_v10 (ix2 o i) = ix2 (0 : Fin 1) i := funext fun a => by
    match a with | ⟨0, _⟩ => rfl | ⟨1, _⟩ => rfl
  have h68 : idx_main_v6 (idx_main_v8 (ix2 o i)) = ix1 i := funext fun a => by
    match a with | ⟨0, _⟩ => rfl
  rw [val_main_v11_apply, val_main_v10_apply, val_main_v9_apply, val_main_v8_apply, val_main_v7_apply, val_main_v6_apply,
    h10, h68, colsq_eq, numer_eq]
  rfl

/-- The reference's result is `Spec.result`. -/
theorem result_eq : val_main_v15 (F := Ideal) x0 x1 x2 x3 x4 x5 = Spec.result x0 x1 x2 x3 x4 x5 := by
  funext j
  obtain ⟨b, s, o, rfl⟩ : ∃ (b : Fin 4) (s : Fin 2048) (o : Fin 4096), j = ix3 b s o := ⟨j 0, j 1, j 2, eq_ix3 j⟩
  have hl : ∀ k : Fin 4096, lidx_main_v12 (ix3 b s o) k = ix3 b s k := fun k => funext fun a => by
    match a with | ⟨0, _⟩ => rfl | ⟨1, _⟩ => rfl | ⟨2, _⟩ => rfl
  have hr : ∀ k : Fin 4096, ridx_main_v12 (ix3 b s o) k = ix2 o k := fun k => funext fun a => by
    match a with | ⟨0, _⟩ => rfl | ⟨1, _⟩ => rfl
  have hb : idx_main_v13 (idx_main_v14 (ix3 b s o)) = ix1 o := funext fun a => by
    match a with | ⟨0, _⟩ => rfl
  rw [val_main_v15_apply, val_main_v12_apply, val_main_v14_apply, val_main_v13_apply, hb]
  simp only [hl, hr, newWeight_eq]
  rfl

end Cert.ReferenceIdeal.RefValue

end
-- ==== Proof.lean ====
/-
  The proof of `Cert.Claim`: a low-rank-adapted linear layer with column renormalization, as two kernels, against its plain
  reference, equal over the extended reals.

  The layer: with `u = W + 16 · (B · A)`, the new weight is `u` with each column divided by its Euclidean norm and multiplied by
  a magnitude; the result is the input times the new weight's transpose, plus a bias (Proof/Spec.lean). The first kernel builds
  the new weight 256 columns at a time (a column's norm needs that column only, and the kernel holds all 4096 rows of its
  columns); the second multiplies 256 rows of the input, re-read as [8192, 4096], by 512 rows of the new weight over the whole
  contraction axis and adds the bias. Both programs apply the same operations in the same operand order, so no algebraic law
  joins them: sums are re-indexed, narrowing to bf16 is the identity on the extended reals, a matrix product into a zero
  accumulator is the plain sum, and the reference's column sum starts from a zero that is dropped. No finiteness is used.

  The frames of the two kernel programs are the generated ones; the reference's frame is its generated run with the result
  dropped; `preserves` is `True` (the idealization rewrote nothing). For `algebraic`, the kernel program's run is re-posed with
  the result buffer kept (Proof/KernelRun.lean), its value read through the four segments (Proof/KernelValue.lean over
  Proof/RegionNorm.lean, Proof/HostStretch.lean, Proof/RegionRows.lean, Proof/Reshape.lean), and the reference's generated run
  read stage by stage (Proof/RefValue.lean); both are `Spec.result` of the arguments.
-/
import proofs.«123649_j18373870092444_1_alg».proof.Defs
import proofs.«123649_j18373870092444_1_alg».proof.Proof.Gen.Kernel
import proofs.«123649_j18373870092444_1_alg».proof.Proof.Gen.Kernel.Skeleton
import proofs.«123649_j18373870092444_1_alg».proof.Proof.Gen.Kernel.Launch
import proofs.«123649_j18373870092444_1_alg».proof.Proof.Gen.Kernel.Points
import proofs.«123649_j18373870092444_1_alg».proof.Proof.Gen.Kernel.Frame
import proofs.«123649_j18373870092444_1_alg».proof.Proof.Gen.KernelIdeal
import proofs.«123649_j18373870092444_1_alg».proof.Proof.Gen.KernelIdeal.Skeleton
import proofs.«123649_j18373870092444_1_alg».proof.Proof.Gen.KernelIdeal.Launch
import proofs.«123649_j18373870092444_1_alg».proof.Proof.Gen.KernelIdeal.Points
import proofs.«123649_j18373870092444_1_alg».proof.Proof.Gen.KernelIdeal.Frame
import proofs.«123649_j18373870092444_1_alg».proof.Proof.Gen.ReferenceIdeal
import proofs.«123649_j18373870092444_1_alg».proof.Proof.Gen.ReferenceIdeal.Run
import proofs.«123649_j18373870092444_1_alg».proof.Proof.Gen.ReferenceIdeal.Read
import proofs.«123649_j18373870092444_1_alg».proof.Proof.Gen.Pre_finite_inputs
import proofs.«123649_j18373870092444_1_alg».proof.Proof.KernelValue
import proofs.«123649_j18373870092444_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `Spec.result` of arguments that agree. -/
theorem algebraic : Cert.algebraic_KernelIdeal_ReferenceIdeal := by
  intro m ρ m' ρ' _ hagree
  refine ⟨_, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
